-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics of the masked linear layer, with no program in sight.

  The layer computes, for a token row `T` and an output feature `O`,
      y[T, O] = (∑ p < 4096, x[T, p] · (w[O, p] · mask[O, p])) + bias[O]
  over the extended reals, the 0/1 integer mask read as a real number.  A tiled evaluation walks the
  contraction axis in 8 consecutive stretches of 512 and adds the stretches' partial dot products one after
  the other into a zero block; since addition of extended reals is commutative and associative, the sum of
  the 8 partial sums is the whole sum (`sum_range_blocks`, `spec_blocks`).  No finiteness is needed: nothing is
  distributed or cancelled.
-/
import Idealize.ShloMosaic.PureOps.Ideal
import Idealize.ShloMosaic.Lib.ValueIdx

noncomputable section

namespace Cert.MaskedLinear

open Idealize.ShloMosaic Idealize.ShloMosaic.ValueIdx

/-- A matrix read at natural-number coordinates: its entry where both are in range, a default elsewhere.
    Lets a sum over a stretch of columns be written without carrying bound proofs in the summand. -/
def at2 {α : Type} {n0 n1 : Nat} (A : (⟨2, ![n0, n1]⟩ : Shape).Idx → α) (d : α) (a b : Nat) : α :=
  if h : a < n0 ∧ b < n1 then A (ix2 ⟨a, h.1⟩ ⟨b, h.2⟩) else d

theorem at2_of_lt {α : Type} {n0 n1 : Nat} (A : (⟨2, ![n0, n1]⟩ : Shape).Idx → α) (d : α) {a b : Nat}
    (ha : a < n0) (hb : b < n1) : at2 A d a b = A (ix2 ⟨a, ha⟩ ⟨b, hb⟩) := dif_pos ⟨ha, hb⟩

theorem at2_val {α : Type} {n0 n1 : Nat} (A : (⟨2, ![n0, n1]⟩ : Shape).Idx → α) (d : α) (a : Fin n0) (b : Fin n1) :
    at2 A d a.val b.val = A (ix2 a b) := at2_of_lt A d a.isLt b.isLt

/-- One product of the contraction: column `p` of row `T` of `x` against column `p` of row `O` of the masked weight. -/
def term (x : FVec Ideal ⟨2, ![8192, 4096]⟩ .f32) (w : FVec Ideal ⟨2, ![4096, 4096]⟩ .f32)
    (mk : IVec ⟨2, ![4096, 4096]⟩ 32) (T O p : Nat) : EReal :=
  at2 x 0 T p * (at2 w 0 O p * FloatOps.sitofp (F := Ideal) .f32 (at2 mk 0#32 O p))

/-- THE LAYER: the masked dot product of row `T` of `x` with row `O` of `w`, plus the bias of feature `O`. -/
def spec (x : FVec Ideal ⟨2, ![8192, 4096]⟩ .f32) (w : FVec Ideal ⟨2, ![4096, 4096]⟩ .f32)
    (b : FVec Ideal ⟨1, ![4096]⟩ .f32) (mk : IVec ⟨2, ![4096, 4096]⟩ 32) : FVec Ideal ⟨2, ![8192, 4096]⟩ .f32 :=
  fun i => (∑ p : Fin 4096, x (ix2 (i 0) p) * (w (ix2 (i 1) p) * FloatOps.sitofp (F := Ideal) .f32 (mk (ix2 (i 1) p))))
    + b (ix1 (i 1))

/-- A sum over `n` consecutive stretches of length `B` is the sum of the stretches' sums. -/
theorem sum_range_blocks {M : Type*} [AddCommMonoid M] (f : ℕ → M) (B : ℕ) :
    ∀ n : ℕ, ∑ p ∈ Finset.range (n * B), f p = ∑ s ∈ Finset.range n, ∑ q ∈ Finset.range B, f (s * B + q)
  | 0 => by simp
  | n + 1 => by rw [Nat.succ_mul, Finset.sum_range_add, sum_range_blocks f B n, Finset.sum_range_succ]

/-- The layer at `(T, O)` as the tiled evaluation leaves it: zero, plus the 8 stretches' partial dot products,
    plus the bias. -/
theorem spec_blocks (x : FVec Ideal ⟨2, ![8192, 4096]⟩ .f32) (w : FVec Ideal ⟨2, ![4096, 4096]⟩ .f32)
    (b : FVec Ideal ⟨1, ![4096]⟩ .f32) (mk : IVec ⟨2, ![4096, 4096]⟩ 32) (T : Fin 8192) (O : Fin 4096) :
    spec x w b mk (ix2 T O)
      = (0 + ∑ s ∈ Finset.range 8, ∑ q : Fin 512, term x w mk T.val O.val (s * 512 + q.val)) + b (ix1 O) := by
  show (∑ p : Fin 4096, x (ix2 T p) * (w (ix2 O p) * FloatOps.sitofp (F := Ideal) .f32 (mk (ix2 O p)))) + b (ix1 O) = _
  congr 1
  rw [zero_add]
  have e : ∀ p : Fin 4096, x (ix2 T p) * (w (ix2 O p) * FloatOps.sitofp (F := Ideal) .f32 (mk (ix2 O p)))
      = term x w mk T.val O.val p.val := fun p => by
    unfold term; rw [at2_val, at2_val, at2_val]
  rw [Finset.sum_congr rfl fun p _ => e p, ← Finset.sum_range (fun p => term x w mk T.val O.val p)]
  refine (sum_range_blocks (fun p => term x w mk T.val O.val p) 512 8).trans ?_
  exact Finset.sum_congr rfl fun s _ => Finset.sum_range (fun q => term x w mk T.val O.val (s * 512 + q))

end Cert.MaskedLinear

end
-- ==== Proof.Pieces.lean ====
/-
  What one grid point of the masked matmul leaves behind, as values.

  The body keeps a [1024, 1024] accumulator in a scratch buffer.  At a point whose contraction coordinate is 0 it first
  stores the zero block there; at every point it then replaces the accumulator by "accumulator + this point's partial
  product" (one covering store); at a point whose contraction coordinate is 7 it finally stores "accumulator + bias row"
  into the output block.  Each lemma below reads the covering store of one case back as the body's arithmetic applied to
  the point's input blocks and to what the accumulator held before.
-/
import proofs.«102180_j29798483100096_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point (contraction coordinate 1 … 6): the accumulator, holding `acc`, ends at `acc + partial product`. -/
theorem scratch_mid (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x512 .i32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x0 : Vec F S1024x512 .f32) (x1 : Vec F S1024x512 .f32) (x2 : Vec F S1024x512 .i32) (x3 : Vec F S1x1024 .f32) (acc : Vec F S1024x1024 .f32) :
    sout0_B_0 c i a3 h3 a4 h4 a5 h5 a6 h6 a7 h7 a8 h8 hc0 hc1 x0 x1 x2 x3 acc = k0_pay2 x0 x1 x2 acc := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  sl_unfold_words
  rw [View.canon_unit_zero hz]
  simp only [View.readAt_eq_ld, h3.read_unread, h4.read_unread, h5.read_unread, h8.read_unread,
    View.ld_unit_zero (S := S1024x512) hz, View.ld_unit_zero (S := S1024x1024) hz]

/-- The last point of a run (contraction coordinate 7): the accumulator ends the same way, -/
theorem scratch_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x512 .i32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1x1024 .f32) (acc : Vec F S1024x1024 .f32) :
    sout0_C_0 c i a3 h3 a4 h4 a5 h5 a6 h6 a7 h7 a8 h8 hc0 hc1 x0 x1 x2 x3 acc = k0_pay2 x0 x1 x2 acc := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero hz]
  simp only [View.readAt_eq_ld, h3.read_unread, h4.read_unread, h5.read_unread, h8.read_unread,
    View.ld_unit_zero (S := S1024x512) hz, View.ld_unit_zero (S := S1024x1024) hz]

/-- and the output block is that final accumulator plus the bias row, broadcast down the rows. -/
theorem out_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x512 .i32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec F S1024x512 .f32) (x1 : Vec F S1024x512 .f32) (x2 : Vec F S1024x512 .i32) (x3 : Vec F S1x1024 .f32) (acc : Vec F S1024x1024 .f32) :
    out0_C_4 c i a3 h3 a4 h4 a5 h5 a6 h6 a7 h7 a8 h8 hc0 hc1 x0 x1 x2 x3 acc = k0_pay3 (k0_pay2 x0 x1 x2 acc) x3 := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x512) hz, View.ld_unit_zero (S := S1024x1024) hz, View.ld_unit_zero (S := S1x1024) hz,
    View.readCov_unit_zero (S := S1024x1024) _ hz]

/-- The first point of a run (contraction coordinate 0): the zero block is stored, read back, and the accumulator ends
    at `zero block + partial product`, whatever it held before. -/
theorem scratch_first (c : Dev nD) (i : grid0.Coords) (a3 : Memref sig .tc .vmem S1024x512 .f32) (h3 : a3.IsWhole)
    (a4 : Memref sig .tc .vmem S1024x512 .f32) (h4 : a4.IsWhole) (a5 : Memref sig .tc .vmem S1024x512 .i32) (h5 : a5.IsWhole)
    (a6 : Memref sig .tc .vmem S1x1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 : Vec F S1024x512 .f32) (x1 : Vec F S1024x512 .f32) (x2 : Vec F S1024x512 .i32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h8.read_unread,
    View.ld_unit_zero (S := S1024x512) hz, View.ld_unit_zero (S := S1024x1024) hz]

end Cert.KernelIdeal.Pieces

end
-- ==== Proof.Payload.lean ====
/-
  The body's arithmetic, read at one entry, over the extended reals.

  At entry `(r, s)` of the [1024, 1024] accumulator block:
    * the reset payload is `0`;
    * the update payload is `acc[r, s] + ∑ q < 512, x[r, q] · (w[s, q] · mask[s, q])` — the matrix product contracts the
      second axis of both operands, the narrowing to bf16 is the identity on exact values, and the integer mask is read
      as a real number;
    * the output payload is `a[r, s] + bias[0, s]`, the bias row broadcast down the rows.
-/
import proofs.«102180_j29798483100096_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-! ## The operand indices of the block product: rows from the output index, columns from the contraction index -/

theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into a zero accumulator, at entry `i`: row `i 0` of the left operand against row `i 1` of the
    right one, summed over their 512 columns. -/
theorem product_at {φ₁ φ₂ : FTy} (l : FVec Ideal S1024x512 φ₁) (r : FVec Ideal S1024x512 φ₂) (i : S1024x1024.Idx) :
    matmul dot_S1024x512_S1024x512_S1024x1024_1_1_0_0_n_n none l r (constant S1024x1024 .f32 0x00000000#32) i
      = ∑ k : Fin 512, l (ix2 (i 0) k) * r (ix2 (i 1) k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx i ((ValueIdx.contrEquiv1 dot_S1024x512_S1024x512_S1024x1024_1_1_0_0_n_n 512 rfl rfl).symm k) = ix2 (i 0) k := funext fun a => Fin.ext (by
    match a with
    | ⟨0, _⟩ => exact lhs_row _ _
    | ⟨1, _⟩ => exact (lhs_col _ _).trans hk)
  have er : dot_S1024x512_S1024x512_S1024x1024_1_1_0_0_n_n.rhsIdx i ((ValueIdx.contrEquiv1 dot_S1024x512_S1024x512_S1024x1024_1_1_0_0_n_n 512 rfl rfl).symm k) = ix2 (i 1) k := funext fun a => Fin.ext (by
    match a with
    | ⟨0, _⟩ => exact rhs_row _ _
    | ⟨1, _⟩ => exact (rhs_col _ _).trans hk)
  rw [el, er]
  rfl

/-- The reset payload is the zero block. -/
theorem reset_at (j : S1024x1024.Idx) : k0_pay1 (F := Ideal) j = 0 := by
  unfold k0_pay1
  rw [shapeCast_self]
  exact Ideal.ofBits_zero_f32

/-- The update payload at `(r, s)`: what the accumulator held there plus this point's partial dot product. -/
theorem update_at (x w : Vec Ideal S1024x512 .f32) (mk : Vec Ideal S1024x512 .i32) (acc : Vec Ideal S1024x1024 .f32)
    (r s : Fin 1024) :
    k0_pay2 (F := Ideal) x w mk acc (ix2 r s)
      = acc (ix2 r s) + ∑ q : Fin 512, x (ix2 r q) * (w (ix2 s q) * FloatOps.sitofp (F := Ideal) .f32 (mk (ix2 s q))) := by
  unfold k0_pay2
  rw [shapeCast_self, addf_apply, product_at]
  rfl

/-- The output payload at `(r, s)`: the accumulator there plus entry `s` of the bias row. -/
theorem output_at (a : Vec Ideal S1024x1024 .f32) (bb : Vec Ideal S1x1024 .f32) (r s : Fin 1024) :
    k0_pay3 (F := Ideal) a bb (ix2 r s) = a (ix2 r s) + bb (ix2 0 s) := by
  unfold k0_pay3
  show a (ix2 r s) + broadcastTo S1024x1024 (shapeCast S1x1024 bb shapeCasts_S1x1024_S1x1024) broadcasts_S1x1024_S1024x1024 (ix2 r s) = _
  rw [shapeCast_self, broadcastTo_apply bb broadcasts_S1x1024_S1024x1024 (ix2 r s) (ix2 0 s) (fun a => match a with
    | ⟨0, _⟩ => by show 0 = if (1 : Nat) = 1 then 0 else _; rw [if_pos rfl]
    | ⟨1, _⟩ => by show s.val = if (1024 : Nat) = 1 then 0 else s.val; rw [if_neg (by decide)])]

end Cert.KernelIdeal.Payload

end
-- ==== Proof.Blocks.lean ====
/-
  What the five windows show of the arrays at a grid point.

  The grid is 8 × 4 × 8, walked with the last coordinate fastest, so point `t` has token tile `t / 32`, feature tile
  `t / 8 % 4` and contraction stretch `t % 8`.  Entry `(r, q)` of the [1024, 512] block of `x` at point `t` is
  `x[1024·(t/32) + r, 512·(t%8) + q]`; of `w` and of the mask, `[1024·(t/8%4) + s, 512·(t%8) + q]`; entry `(0, s)` of
  the [1, 1024] bias block is `bias[1024·(t/8%4) + s]` (the bias vector viewed as one row); and entry `(r, s)` of the
  output block lies at `[1024·(t/32) + r, 1024·(t/8%4) + s]`.
-/
import proofs.«102180_j29798483100096_1_alg».proof.Proof.Spec
import proofs.«102180_j29798483100096_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Cert.MaskedLinear (at2 at2_of_lt)

namespace Cert.KernelIdeal.Blocks

open Cert.KernelIdeal Cert.KernelIdeal.Gen

variable (m : (ℓ : Loc nD τ sig) → Buf (Elt Ideal) ℓ)

/-- The four argument arrays as launched. -/
abbrev xArr (c : Dev nD) : FVec Ideal ⟨2, ![8192, 4096]⟩ .f32 := m ((c.tc : Thread nD τ).loc main_arg0)
abbrev wArr (c : Dev nD) : FVec Ideal ⟨2, ![4096, 4096]⟩ .f32 := m ((c.tc : Thread nD τ).loc main_arg1)
abbrev bArr (c : Dev nD) : FVec Ideal ⟨1, ![4096]⟩ .f32 := m ((c.tc : Thread nD τ).loc main_arg2)
abbrev mArr (c : Dev nD) : IVec ⟨2, ![4096, 4096]⟩ 32 := m ((c.tc : Thread nD τ).loc main_arg3)

/-! ## The block indices over the grid, decided once -/

theorem idx_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem idx_m : ∀ t : Fin cfg0.N, win0_2.index t 0 = t.val / 8 % 4 ∧ win0_2.index t 1 = t.val % 8 :=
  (by decide +kernel : ∀ t : Fin grid0.N, win0_2.index t 0 = t.val / 8 % 4 ∧ win0_2.index t 1 = t.val % 8)
theorem idx_b : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)
theorem idx_o : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-! ## The input blocks, entry by entry -/

theorem xblk_at (c : Dev nD) (t : Fin cfg0.N) (r : Fin 1024) (q : Fin 512) :
    (iblk m c 0 t : Vec Ideal S1024x512 .f32) (ix2 r q)
      = at2 (xArr m c) 0 (t.val / 32 * 1024 + r.val) (t.val % 8 * 512 + q.val) := by
  have hN : t.val < 256 := lt_of_lt_of_eq t.isLt (show cfg0.N = 256 from N_0)
  have hi := idx_x t
  rw [at2_of_lt _ _ (by omega) (by omega)]
  unfold iblk
  rw [View.read_apply]
  show V m c main_arg0 _ = m _ _
  rw [V_main_arg0]
  refine congrArg _ (funext fun a => Fin.ext ?_)
  match a with
  | ⟨0, _⟩ => show win0_0.index t 0 * 1024 + 1 * r.val = t.val / 32 * 1024 + r.val; rw [hi.1]; omega
  | ⟨1, _⟩ => show win0_0.index t 1 * 512 + 1 * q.val = t.val % 8 * 512 + q.val; rw [hi.2]; omega

theorem wblk_at (c : Dev nD) (t : Fin cfg0.N) (s : Fin 1024) (q : Fin 512) :
    (iblk m c 1 t : Vec Ideal S1024x512 .f32) (ix2 s q)
      = at2 (wArr m c) 0 (t.val / 8 % 4 * 1024 + s.val) (t.val % 8 * 512 + q.val) := by
  have hN : t.val < 256 := lt_of_lt_of_eq t.isLt (show cfg0.N = 256 from N_0)
  have hi := idx_w t
  rw [at2_of_lt _ _ (by omega) (by omega)]
  unfold iblk
  rw [View.read_apply]
  show V m c main_arg1 _ = m _ _
  rw [V_main_arg1]
  refine congrArg _ (funext fun a => Fin.ext ?_)
  match a with
  | ⟨0, _⟩ => show win0_1.index t 0 * 1024 + 1 * s.val = t.val / 8 % 4 * 1024 + s.val; rw [hi.1]; omega
  | ⟨1, _⟩ => show win0_1.index t 1 * 512 + 1 * q.val = t.val % 8 * 512 + q.val; rw [hi.2]; omega

theorem mblk_at (c : Dev nD) (t : Fin cfg0.N) (s : Fin 1024) (q : Fin 512) :
    (iblk m c 2 t : Vec Ideal S1024x512 .i32) (ix2 s q)
      = at2 (mArr m c) 0#32 (t.val / 8 % 4 * 1024 + s.val) (t.val % 8 * 512 + q.val) := by
  have hN : t.val < 256 := lt_of_lt_of_eq t.isLt (show cfg0.N = 256 from N_0)
  have hi := idx_m t
  rw [at2_of_lt _ _ (by omega) (by omega)]
  unfold iblk
  rw [View.read_apply]
  show V m c main_arg3 _ = m _ _
  rw [V_main_arg3]
  refine congrArg _ (funext fun a => Fin.ext ?_)
  match a with
  | ⟨0, _⟩ => show win0_2.index t 0 * 1024 + 1 * s.val = t.val / 8 % 4 * 1024 + s.val; rw [hi.1]; omega
  | ⟨1, _⟩ => show win0_2.index t 1 * 512 + 1 * q.val = t.val % 8 * 512 + q.val; rw [hi.2]; omega

/-- The bias row the region finds: the bias vector viewed as a [1, 4096] array. -/
theorem bias_row (c : Dev nD) :
    (V m c main_v0 : S1x4096.Idx → EReal) = shapeCast S1x4096 (bArr m c) shapeCasts_S4096_S1x4096 := by
  dsimp only [Gen.V, Gen.hostOps0]
  after_results
  rfl

theorem bblk_at (c : Dev nD) (t : Fin cfg0.N) (s : Fin 1024) :
    (iblk m c 3 t : Vec Ideal S1x1024 .f32) (ix2 0 s)
      = bArr m c (ix1 ⟨t.val / 8 % 4 * 1024 + s.val, by have := s.isLt; omega⟩) := by
  have hi := idx_b t
  unfold iblk
  rw [View.read_apply]
  show V m c main_v0 _ = _
  rw [bias_row]
  refine shapeCast_apply _ _ _ _ ?_
  rw [Shape.rowMajor_val_one, Shape.rowMajor_val_two]
  show t.val / 8 % 4 * 1024 + s.val = (win0_3.index t 0 * 1 + 1 * 0) * 4096 + (win0_3.index t 1 * 1024 + 1 * s.val)
  rw [hi.1, hi.2]; omega

end Cert.KernelIdeal.Blocks

end
-- ==== Proof.Fold.lean ====
/-
  The accumulator over a run of eight points, and the output block the run's last point stores.

  Points `8u, 8u + 1, …, 8u + 7` share a token tile and a feature tile and walk the eight contraction stretches.  The
  first one leaves `0 + P(8u)` in the accumulator, every later one adds its own partial product `P(n)` to what the point
  before left, so after point `t` the accumulator holds `0 + ∑ s ≤ t % 8, P(8·(t/8) + s)`; the last point of the run
  stores that sum plus the bias row as the output block.
-/
import proofs.«102180_j29798483100096_1_alg».proof.Proof.Spec
import proofs.«102180_j29798483100096_1_alg».proof.Proof.Pieces
import proofs.«102180_j29798483100096_1_alg».proof.Proof.Payload
import proofs.«102180_j29798483100096_1_alg».proof.Proof.Blocks
import proofs.«102180_j29798483100096_1_alg».proof.Proof.Gen.KernelIdeal.Value

noncomputable section

open Idealize.ShloMosaic Idealize.ShloMosaic.TcCoe Idealize.SL.Sem Idealize.ShloMosaic.ValueIdx
open Cert.MaskedLinear (term)

namespace Cert.KernelIdeal.Fold

open Cert.KernelIdeal Cert.KernelIdeal.Gen Cert.KernelIdeal.Blocks

variable (m : (ℓ : Loc nD τ sig) → Buf (Elt Ideal) ℓ)

/-- Point `n`'s partial product at entry `j` of the block: the stretch `n % 8` of the masked dot product of token row
    `1024·(n/32) + j₀` with feature row `1024·(n/8%4) + j₁`. -/
def partialProd (c : Dev nD) (n : ℕ) (j : S1024x1024.Idx) : EReal :=
  ∑ q : Fin 512, term (xArr m c) (wArr m c) (mArr m c) (n / 32 * 1024 + (j 0).val) (n / 8 % 4 * 1024 + (j 1).val)
    (n % 8 * 512 + q.val)

/-- One update at point `t`: whatever the accumulator held, it gains the point's partial product. -/
theorem update_point (c : Dev nD) (t : Fin cfg0.N) (acc : Vec Ideal S1024x1024 .f32) (j : S1024x1024.Idx) :
    k0_pay2 (F := Ideal) (iblk m c 0 t) (iblk m c 1 t) (iblk m c 2 t) acc j = acc j + partialProd m c t.val j := by
  obtain ⟨r, s, rfl⟩ : ∃ (r s : Fin 1024), j = ix2 r s := ⟨j 0, j 1, eq_ix2 j⟩
  refine (Payload.update_at (iblk m c 0 t) (iblk m c 1 t) (iblk m c 2 t) acc r s).trans ?_
  refine congrArg (acc (ix2 r s) + ·) (Finset.sum_congr rfl fun q _ => ?_)
  rw [xblk_at, wblk_at, mblk_at]
  rfl

/-- What a point that opens a run leaves in the accumulator. -/
theorem acc_first (c : Dev nD) (n : ℕ) (hb : n < cfg0.N) (h0 : n % 8 = 0) (acc : Vec Ideal S1024x1024 .f32)
    (j : S1024x1024.Idx) : Value.scAt0_0 m c n hb acc j = 0 + partialProd m c n j := by
  have h1 : ¬n % 8 = 7 := by omega
  unfold Value.scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) j).trans ?_
  rw [update_point m c (⟨n, hb⟩ : Fin cfg0.N) _ j, Payload.reset_at]

/-- What every other point leaves there, over what the point before left. -/
theorem acc_next (c : Dev nD) (n : ℕ) (hb : n < cfg0.N) (h0 : ¬n % 8 = 0) (acc : Vec Ideal S1024x1024 .f32)
    (j : S1024x1024.Idx) : Value.scAt0_0 m c n hb acc j = acc j + partialProd m c n j := by
  unfold Value.scAt0_0
  rw [dif_neg h0]
  by_cases h1 : n % 8 = 7
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) j).trans ?_
    exact update_point m c (⟨n, hb⟩ : Fin cfg0.N) acc j
  · rw [dif_neg h1]
    refine (congrFun (Pieces.scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) j).trans ?_
    exact update_point m c (⟨n, hb⟩ : Fin cfg0.N) acc j

/-- THE ACCUMULATOR after point `t`: zero plus the partial products of the run's points up to `t`. -/
theorem acc_after (c : Dev nD) (t : Fin cfg0.N) (j : S1024x1024.Idx) :
    (outsAt0 m c t.val t.isLt).2 j
      = 0 + ∑ s ∈ Finset.range (t.val % 8 + 1), partialProd m c (8 * (t.val / 8) + s) j := by
  rw [Value.soutsAt0_0_eq m c t]
  exact Pipeline.accAt_add_apply (fun n h => Value.scAt0_0 m c n h (VS0_0.read (Elt Ideal) VS0_0.junk)) (Value.scAt0_0 m c)
    (fun _ => 0) (partialProd m c) (8 * (t.val / 8)) 7
    (fun h i => acc_first m c _ h (by omega) _ i)
    (fun n h acc i h1 h2 => acc_next m c n h (by omega) acc i)
    (t.val % 8) (by omega) _ j

/-- THE OUTPUT BLOCK a run's last point stores, entry by entry: the eight partial products summed, plus the bias. -/
theorem out_last_at (c : Dev nD) (t : Fin cfg0.N) (h1 : t.val % 8 = 7) (r s : Fin 1024) :
    (outsAt0 m c t.val t.isLt).1 (ix2 r s)
      = (0 + ∑ k ∈ Finset.range 8, partialProd m c (8 * (t.val / 8) + k) (ix2 r s))
        + bArr m c (ix1 ⟨t.val / 8 % 4 * 1024 + s.val, by have := s.isLt; omega⟩) := by
  have h0 : ¬t.val % 8 = 0 := by omega
  have e : (outsAt0 m c t.val t.isLt).1 = k0_pay3 (F := Ideal) ((outsAt0 m c t.val t.isLt).2) (iblk m c 3 t) := by
    rw [outsAt0_C m c t h0 h1]
    dsimp only
    exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
      (congrArg (fun a => k0_pay3 (F := Ideal) a (iblk m c 3 t)) (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)
  rw [e]
  refine (Payload.output_at ((outsAt0 m c t.val t.isLt).2) (iblk m c 3 t) r s).trans ?_
  rw [acc_after m c t (ix2 r s), bblk_at m c t s, h1]

end Cert.KernelIdeal.Fold

end
-- ==== Proof.Final.lean ====
/-
  The result array after the run is the layer.

  A run's last point (contraction stretch 7) writes its output block back to tile `(t/32, t/8%4)` of the result.  That
  block holds, at `(r, s)`, the eight partial products of the run plus the bias — which is the layer at
  `(1024·(t/32) + r, 1024·(t/8%4) + s)`, the eight stretches of 512 making up the whole contraction.  The 8 × 4 tiles
  cover the [8192, 4096] result, entry `(T, O)` lying in the tile the point `32·(T/1024) + 8·(O/1024) + 7` writes.
-/
import proofs.«102180_j29798483100096_1_alg».proof.Proof.Fold

noncomputable section

open Idealize.ShloMosaic Idealize.ShloMosaic.TcCoe Idealize.SL.Sem Idealize.ShloMosaic.ValueIdx
open Idealize.ShloMosaic.Pipeline (Dat)
open Cert.MaskedLinear (term spec spec_blocks)

namespace Cert.KernelIdeal.Final

open Cert.KernelIdeal Cert.KernelIdeal.Gen Cert.KernelIdeal.Blocks Cert.KernelIdeal.Fold

variable (m : (ℓ : Loc nD τ sig) → Buf (Elt Ideal) ℓ) (ρ : Dev nD → PrngReg)

/-- The layer of the four argument arrays, as contents of the result array. -/
abbrev result (c : Dev nD) : Buf (Elt Ideal) ((c.tc : Thread nD τ).loc main_v1) :=
  spec (xArr m c) (wArr m c) (bArr m c) (mArr m c)

/-- What a run's last point writes back is its tile of the layer. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have hN : t.val < 256 := lt_of_lt_of_eq t.isLt (show cfg0.N = 256 from N_0)
  have hi := idx_o t
  rw [Value.flushed4]
  funext y
  obtain ⟨r, s, rfl⟩ : ∃ (r s : Fin 1024), y = ix2 r s := ⟨y 0, y 1, eq_ix2 y⟩
  rw [View.read_apply]
  show (outsAt0 m c t.val t.isLt).1 (ix2 r s) = result m c (((cfg0.win 4).blk t).view.emb (ix2 r s))
  have ei : ((cfg0.win 4).blk t).view.emb (ix2 r s)
      = ix2 (⟨t.val / 32 * 1024 + r.val, by have := r.isLt; omega⟩ : Fin 8192)
          (⟨t.val / 8 % 4 * 1024 + s.val, by have := s.isLt; omega⟩ : Fin 4096) := funext fun a => Fin.ext (by
    match a with
    | ⟨0, _⟩ => show win0_4.index t 0 * 1024 + 1 * r.val = t.val / 32 * 1024 + r.val; rw [hi.1]; omega
    | ⟨1, _⟩ => show win0_4.index t 1 * 1024 + 1 * s.val = t.val / 8 % 4 * 1024 + s.val; rw [hi.2]; omega)
  rw [out_last_at m c t h1 r s, ei]
  refine ((spec_blocks (xArr m c) (wArr m c) (bArr m c) (mArr m c) _ _).trans ?_).symm
  refine congrArg (· + _) (congrArg (0 + ·) (Finset.sum_congr rfl fun k hk => ?_))
  have hk' : k < 8 := Finset.mem_range.mp hk
  have a1 : (8 * (t.val / 8) + k) / 32 = t.val / 32 := by omega
  have a2 : (8 * (t.val / 8) + k) / 8 % 4 = t.val / 8 % 4 := by omega
  have a3 : (8 * (t.val / 8) + k) % 8 = k := by omega
  show _ = ∑ q : Fin 512, term (xArr m c) (wArr m c) (mArr m c) ((8 * (t.val / 8) + k) / 32 * 1024 + r.val)
    ((8 * (t.val / 8) + k) / 8 % 4 * 1024 + s.val) ((8 * (t.val / 8) + k) % 8 * 512 + q.val)
  rw [a1, a2, a3]

/-- An entry of the result lies in point `t`'s tile iff each coordinate is in the tile's range. -/
theorem mem_tile (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v1).slice (win0_4.rect t)).set ↔ _
  rw [View.set_slice_whole, Rect.mem_set_unit]
  exact Iff.rfl

/-- Every entry of the result lies in the tile some run's last point writes. -/
theorem tiles_cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have hlt : (i 0).val / 1024 * 32 + (i 1).val / 1024 * 8 + 7 < cfg0.N := by omega
  refine ⟨⟨(i 0).val / 1024 * 32 + (i 1).val / 1024 * 8 + 7, hlt⟩, (flush0_4 _).mpr (by show (_ + 7) % 8 = 7; omega), ?_⟩
  rw [mem_tile]
  have hi := idx_o ⟨(i 0).val / 1024 * 32 + (i 1).val / 1024 * 8 + 7, hlt⟩
  intro a
  match a with
  | ⟨0, _⟩ =>
    show win0_4.index _ 0 * 1024 ≤ (i 0).val ∧ (i 0).val < win0_4.index _ 0 * 1024 + 1024
    rw [hi.1]; show ((i 0).val / 1024 * 32 + (i 1).val / 1024 * 8 + 7) / 32 * 1024 ≤ _ ∧ _ < ((i 0).val / 1024 * 32 + (i 1).val / 1024 * 8 + 7) / 32 * 1024 + 1024; omega
  | ⟨1, _⟩ =>
    show win0_4.index _ 1 * 1024 ≤ (i 1).val ∧ (i 1).val < win0_4.index _ 1 * 1024 + 1024
    rw [hi.2]; show ((i 0).val / 1024 * 32 + (i 1).val / 1024 * 8 + 7) / 8 % 4 * 1024 ≤ _ ∧ _ < ((i 0).val / 1024 * 32 + (i 1).val / 1024 * 8 + 7) / 8 % 4 * 1024 + 1024; omega

/-- So the result array ends holding the layer. -/
theorem final (c : Dev nD) : (dats m 0 c).arrAt 4 cfg0.N = result m c :=
  (dats m 0 c).arrAt_eq_of_cover 4 (result m c) (flushed_eq m c) tiles_cover

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefSpec.lean ====
/-
  The reference computes the layer.

  Its six host operations are: the mask read as reals, the masked weight `w · mask`, the contraction of `x` with it over
  the second axis of both, the bias viewed as a row and broadcast over the token rows, and the sum of the two.  At an entry
  `(T, O)` that is literally `(∑ p, x[T, p] · (w[O, p] · mask[O, p])) + bias[O]`.
-/
import proofs.«102180_j29798483100096_1_alg».proof.Proof.Spec
import proofs.«102180_j29798483100096_1_alg».proof.Proof.Gen.ReferenceIdeal.Read

noncomputable section

open Idealize.ShloMosaic Idealize.ShloMosaic.TcCoe Idealize.ShloMosaic.ValueIdx

namespace Cert.ReferenceIdeal.RefValue

open Cert.ReferenceIdeal Cert.ReferenceIdeal.Read

theorem ref_is_spec (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    val_main_v5 (F := Ideal) x0 x1 x2 x3 = Cert.MaskedLinear.spec x0 x1 x2 x3 := by
  funext i
  have el : ∀ k : Fin 4096, lidx_main_v2 i k = ix2 (i 0) k := fun k => funext fun a => by
    match a with
    | ⟨0, _⟩ => rfl
    | ⟨1, _⟩ => rfl
  have er : ∀ k : Fin 4096, ridx_main_v2 i k = ix2 (i 1) k := fun k => funext fun a => by
    match a with
    | ⟨0, _⟩ => rfl
    | ⟨1, _⟩ => rfl
  have eb : idx_main_v3 (idx_main_v4 i) = ix1 (i 1) := funext fun a => by
    match a with
    | ⟨0, _⟩ => rfl
  rw [val_main_v5_apply, val_main_v2_apply, val_main_v4_apply, val_main_v3_apply]
  simp only [el, er, eb, val_main_v1_apply, val_main_v0_apply]
  rfl

end Cert.ReferenceIdeal.RefValue

end
-- ==== Proof.lean ====
/-
  The certificate of the masked linear layer  y = x · (w ∘ mask)ᵀ + bias  (x : [8192, 4096], w and the 0/1 integer mask :
  [4096, 4096], bias : [4096]), tiled 8 × 4 × 8 with a [1024, 1024] accumulator carried along the contraction axis.

  Over the extended reals the tiled kernel and the plain reference compute the same array: the kernel's accumulator
  ends each run of eight points at `0 + ∑ₖ Pₖ`, the eight stretches' partial dot products, and the last point adds the
  bias; the reference contracts all 4096 columns at once and adds the bias.  Addition of extended reals is commutative and
  associative, so the eight partial sums are the whole sum — no finiteness of the inputs is used, only that the two
  programs multiply the same factors (the narrowing of the matrix product's operands to bf16 is the identity on exact
  values, and both read the integer mask as the same real number).

  The frames are the generated ones (the reference's: its generated run with the result dropped); the ideal pass
  rewrote nothing, so `preserves` is trivial.
-/
import proofs.«102180_j29798483100096_1_alg».proof.Defs
import proofs.«102180_j29798483100096_1_alg».proof.Proof.Gen.Kernel
import proofs.«102180_j29798483100096_1_alg».proof.Proof.Gen.Kernel.Skeleton
import proofs.«102180_j29798483100096_1_alg».proof.Proof.Gen.Kernel.Launch
import proofs.«102180_j29798483100096_1_alg».proof.Proof.Gen.Kernel.Points
import proofs.«102180_j29798483100096_1_alg».proof.Proof.Gen.Kernel.Frame
import proofs.«102180_j29798483100096_1_alg».proof.Proof.Gen.KernelIdeal
import proofs.«102180_j29798483100096_1_alg».proof.Proof.Gen.KernelIdeal.Skeleton
import proofs.«102180_j29798483100096_1_alg».proof.Proof.Gen.KernelIdeal.Launch
import proofs.«102180_j29798483100096_1_alg».proof.Proof.Gen.KernelIdeal.Points
import proofs.«102180_j29798483100096_1_alg».proof.Proof.Gen.KernelIdeal.Frame
import proofs.«102180_j29798483100096_1_alg».proof.Proof.Gen.KernelIdeal.Value
import proofs.«102180_j29798483100096_1_alg».proof.Proof.Gen.ReferenceIdeal.Run
import proofs.«102180_j29798483100096_1_alg».proof.Proof.Gen.ReferenceIdeal.Read
import proofs.«102180_j29798483100096_1_alg».proof.Proof.Gen.ReferenceIdeal
import proofs.«102180_j29798483100096_1_alg».proof.Proof.Gen.Pre_finite_inputs
import proofs.«102180_j29798483100096_1_alg».proof.Proof.Final
import proofs.«102180_j29798483100096_1_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the layer of the (agreeing) arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_is_spec,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
